-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S4096x1024 : Shape := ⟨2, ![4096, 1024]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 16
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .bf16⟩
  | .hbm, ⟨11, _⟩ => ⟨S1x4096, .f32⟩
  | .hbm, ⟨12, _⟩ => ⟨S1x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x1024x1024_S4096x1024 : S4x1024x1024.ShapeCasts S4096x1024
  bitsLt_bf16_f32 : FTy.bits .bf16 < FTy.bits .f32
  shapeCasts_S4x1024_S1x4096 : S4x1024.ShapeCasts S1x4096
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .f32 = 32 ∨ (Rect.block (s := S16384x1024) S512x1024.size (cc0_transform_9 i) (hinb0_9 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S16384x4x1024, .f32⟩
  | .hbm, ⟨8, _⟩ => ⟨S16384x4x1024, .f32⟩
  | .hbm, ⟨9, _⟩ => ⟨S16384x4x1024, .f32⟩
  | .hbm, ⟨10, _⟩ => ⟨S1x4x1024, .f32⟩
  | .hbm, ⟨11, _⟩ => ⟨S16384x4x1024, .f32⟩
  | .hbm, ⟨12, _⟩ => ⟨S16384x4x1024, .f32⟩
  | .hbm, ⟨13, _⟩ => ⟨S1x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.LstmSpec.lean ====
/-
  The LSTM cell this certificate is about, written once as functions of the seven argument arrays, index by index, on the
  extended reals.  For a batch row `b`, a gate `g` (0 forget, 1 input, 2 cell candidate, 3 output) and a hidden unit `j`,

      pre b g j = ((Σ_i x[b,i] · Wx[g,j,i]) + (Σ_k h[b,k] · Wh[g,j,k])) + bx[g,j] + bh[g,j]

  and the three results are

      o      = σ(pre · 3 ·)
      c_new  = σ(pre · 0 ·) · c + σ(pre · 1 ·) · tanh(pre · 2 ·)
      h_new  = o · tanh(c_new)

  with σ x = 1 / (1 + e^(-x)).  Both programs add the two matrix products first and then the two biases in this order,
  so no rearrangement of a sum is needed and nothing here asks the inputs to be finite.
-/
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx
open scoped BigOperators

/-- The shape of `x`, `c`, `h` and of the three results: batch rows by hidden units. -/
abbrev ShRows : Shape := ⟨2, ![16384, 1024]⟩
/-- The shape of the two stacked weight arrays: gate, hidden unit, input feature. -/
abbrev ShWeights : Shape := ⟨3, ![4, 1024, 1024]⟩
/-- The shape of the two stacked biases: gate, hidden unit. -/
abbrev ShBias : Shape := ⟨2, ![4, 1024]⟩

/-- Gate `g`'s pre-activation at batch row `b` and hidden unit `j`. -/
def preact (x h : ShRows.Idx → EReal) (Wx Wh : ShWeights.Idx → EReal) (bx bh : ShBias.Idx → EReal)
    (b : Fin 16384) (g : Fin 4) (j : Fin 1024) : EReal :=
  ((∑ i : Fin 1024, x (ix2 b i) * Wx (ix3 g j i)) + (∑ k : Fin 1024, h (ix2 b k) * Wh (ix3 g j k)))
    + bx (ix2 g j) + bh (ix2 g j)

/-- The output gate `o`. -/
def outGate (x h : ShRows.Idx → EReal) (Wx Wh : ShWeights.Idx → EReal) (bx bh : ShBias.Idx → EReal) :
    ShRows.Idx → EReal :=
  fun i => Ideal.logistic (preact x h Wx Wh bx bh (i 0) 3 (i 1))

/-- The new cell state `c_new = f · c + i · k`. -/
def cellNext (x c h : ShRows.Idx → EReal) (Wx Wh : ShWeights.Idx → EReal) (bx bh : ShBias.Idx → EReal) :
    ShRows.Idx → EReal :=
  fun i => Ideal.logistic (preact x h Wx Wh bx bh (i 0) 0 (i 1)) * c i
    + Ideal.logistic (preact x h Wx Wh bx bh (i 0) 1 (i 1)) * Ideal.tanh (preact x h Wx Wh bx bh (i 0) 2 (i 1))

/-- The new hidden state `h_new = o · tanh c_new`. -/
def hiddenNext (x c h : ShRows.Idx → EReal) (Wx Wh : ShWeights.Idx → EReal) (bx bh : ShBias.Idx → EReal) :
    ShRows.Idx → EReal :=
  fun i => outGate x h Wx Wh bx bh i * Ideal.tanh (cellNext x c h Wx Wh bx bh i)

/-- The reference spells the sigmoid out as a quotient of the constant one by one plus an exponential; that is the
    logistic function's definition on the extended reals. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]; rfl

end Cert.Lstm

end
-- ==== Proof.KernelPreact.lean ====
/-
  What the kernel body computes before the gates: the 512 × 4096 array of pre-activations of one batch tile, read at an
  index.  Row `p` of the tile and flat gate column `n` (gate `n / 1024`, hidden unit `n % 1024`) hold

      (Σ_k xtile[p,k] · wx[n,k]) + (Σ_k htile[p,k] · wh[n,k]) + bx[0,n] + bh[0,n]

  — two matrix products contracting the LAST axis of both operands (so no transpose appears), into a zero accumulator, then
  the two bias rows broadcast down the tile.  The narrowing of the tiles to bf16 is the identity on the extended reals.
-/
import proofs.«150628_j12962211300009_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Preact

open Cert.KernelIdeal Cert.KernelIdeal.Gen Idealize.ShloMosaic Idealize.ShloMosaic.ValueIdx
open scoped BigOperators

/-- The matrix product's dimension record: both operands contract their axis 1. -/
abbrev mm := dot_S512x1024_S4096x1024_S512x4096_1_1_0_0_n_n

/-! ## Where the product reads its operands -/

theorem lhs_axis0 (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_axis1 (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_axis0 (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_axis1 (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- A tile times a weight matrix, both contracted along their last axis, into the zero accumulator: entry `(p, n)` is the
    sum over `k` of `l[p,k] · r[n,k]`. -/
theorem product_apply (l : FVec Ideal S512x1024 .bf16) (r : FVec Ideal S4096x1024 .bf16) (p : Fin 512) (n : Fin 4096) :
    matmul dot_S512x1024_S4096x1024_S512x4096_1_1_0_0_n_n none l r (constant (F := Ideal) S512x4096 .f32 0x00000000#32) (ix2 p n)
      = ∑ k : Fin 1024, l (ix2 p k) * r (ix2 n k) := by
  simp only [matmul]
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 p n) ((ValueIdx.contrEquiv1 dot_S512x1024_S4096x1024_S512x4096_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S4096x1024_S512x4096_1_1_0_0_n_n.rhsIdx (ix2 p n) ((ValueIdx.contrEquiv1 dot_S512x1024_S4096x1024_S512x4096_1_1_0_0_n_n 1024 rfl rfl).symm k) = ix2 n k := funext fun a => Fin.ext (by
    match a with
    | ⟨0, _⟩ => exact rhs_axis0 _ _
    | ⟨1, _⟩ => exact (rhs_axis1 _ _).trans hk)
  rw [el, er]

/-- A bias row broadcast down the tile reads the row at the column. -/
theorem bias_apply (b : FVec Ideal S1x4096 .f32) (p : Fin 512) (n : Fin 4096) :
    broadcastTo S512x4096 (shapeCast S1x4096 b shapeCasts_S1x4096_S1x4096) broadcasts_S1x4096_S512x4096 (ix2 p n) = b (ix2 0 n) := by
  rw [shapeCast_self]
  refine broadcastTo_apply b broadcasts_S1x4096_S512x4096 (ix2 p n) (ix2 0 n) (fun a => ?_)
  match a with
  | ⟨0, _⟩ => show (0 : Nat) = if (1 : Nat) = 1 then 0 else _; rw [if_pos rfl]
  | ⟨1, _⟩ => show n.val = if (4096 : Nat) = 1 then 0 else n.val; rw [if_neg (by decide)]

/-- THE PRE-ACTIVATIONS OF A TILE at row `p` and flat gate column `n`. -/
theorem pay1_apply (x0 x1 : Vec Ideal S512x1024 .f32) (w3 w4 : Vec Ideal S4096x1024 .bf16) (b5 b6 : Vec Ideal S1x4096 .f32)
    (p : Fin 512) (n : Fin 4096) :
    k0_pay1 (F := Ideal) x0 x1 w3 w4 b5 b6 (ix2 p n)
      = ((∑ k : Fin 1024, x0 (ix2 p k) * w3 (ix2 n k)) + (∑ k : Fin 1024, x1 (ix2 p k) * w4 (ix2 n k)))
          + b5 (ix2 0 n) + b6 (ix2 0 n) := by
  unfold k0_pay1
  simp only [addf_apply]
  rw [product_apply, product_apply, bias_apply, bias_apply]
  simp only [shapeCast_self, truncf_apply]

end Cert.KernelIdeal.Preact

end
-- ==== Proof.KernelTile.lean ====
/-
  One grid point of the kernel, as mathematics.  The body is handed seven blocks: a tile of 512 consecutive batch rows of
  each of `x`, `h`, `c`; the two weight stacks flattened to 4096 × 1024 (row `g · 1024 + j` is gate `g`, unit `j`); the
  two biases flattened to one row of 4096.  `ReadsTile` says exactly that of seven arbitrary blocks, for a tile starting
  at row `r0`.  Under it the body's pre-activation at tile row `p`, flat column `g · 1024 + j` is the cell's `preact` at
  batch row `r0 + p`, and the three blocks the body leaves are the cell's three results on the tile's rows: the body cuts
  the 4096 columns into the four gates at offsets 0, 1024, 2048, 3072 and applies σ, σ, tanh, σ.
-/
import proofs.«150628_j12962211300009_1_alg».proof.Proof.LstmSpec
import proofs.«150628_j12962211300009_1_alg».proof.Proof.KernelPreact
import proofs.«150628_j12962211300009_1_alg».proof.Proof.Gen.KernelIdeal.Value

noncomputable section

namespace Cert.KernelIdeal.Tile

open Cert.KernelIdeal Cert.KernelIdeal.Gen Idealize.ShloMosaic Idealize.ShloMosaic.ValueIdx Cert.Lstm
open scoped BigOperators

theorem origin : (![0, 0] : Fin 2 → Nat) = fun _ => 0 := funext fun a => by fin_cases a <;> rfl

/-- A block index's row is below 512 and its column below 1024. -/
theorem row_lt (y : S512x1024.Idx) : (y 0).val < 512 := (y 0).isLt
theorem col_lt (y : S512x1024.Idx) : (y 1).val < 1024 := (y 1).isLt

/-- The seven blocks are the tile of rows `r0 … r0 + 511` of `X`, `H`, `C`, the flattened weights and the flattened biases. -/
structure ReadsTile (x0 x1 x2 : Vec Ideal S512x1024 .f32) (x3 x4 : Vec Ideal S4096x1024 .bf16) (x5 x6 : Vec Ideal S1x4096 .f32)
    (X C H : ShRows.Idx → EReal) (Wx Wh : ShWeights.Idx → EReal) (bx bh : ShBias.Idx → EReal)
    (r0 : Nat) (hr : r0 + 512 ≤ 16384) : Prop where
  xrows : ∀ (p : Fin 512) (k : Fin 1024), x0 (ix2 p k) = X (ix2 ⟨r0 + p.val, by have := p.isLt; omega⟩ k)
  hrows : ∀ (p : Fin 512) (k : Fin 1024), x1 (ix2 p k) = H (ix2 ⟨r0 + p.val, by have := p.isLt; omega⟩ k)
  crows : ∀ (p : Fin 512) (k : Fin 1024), x2 (ix2 p k) = C (ix2 ⟨r0 + p.val, by have := p.isLt; omega⟩ k)
  wxflat : ∀ (g : Fin 4) (j k : Fin 1024), x3 (ix2 ⟨g.val * 1024 + j.val, by have := g.isLt; have := j.isLt; omega⟩ k) = Wx (ix3 g j k)
  whflat : ∀ (g : Fin 4) (j k : Fin 1024), x4 (ix2 ⟨g.val * 1024 + j.val, by have := g.isLt; have := j.isLt; omega⟩ k) = Wh (ix3 g j k)
  bxflat : ∀ (g : Fin 4) (j : Fin 1024), x5 (ix2 0 ⟨g.val * 1024 + j.val, by have := g.isLt; have := j.isLt; omega⟩) = bx (ix2 g j)
  bhflat : ∀ (g : Fin 4) (j : Fin 1024), x6 (ix2 0 ⟨g.val * 1024 + j.val, by have := g.isLt; have := j.isLt; omega⟩) = bh (ix2 g j)

section
variable {x0 x1 x2 : Vec Ideal S512x1024 .f32} {x3 x4 : Vec Ideal S4096x1024 .bf16} {x5 x6 : Vec Ideal S1x4096 .f32}
  {X C H : ShRows.Idx → EReal} {Wx Wh : ShWeights.Idx → EReal} {bx bh : ShBias.Idx → EReal} {r0 : Nat} {hr : r0 + 512 ≤ 16384}

/-- The tile's pre-activation at row `p`, gate `g`, unit `j` is the cell's at batch row `r0 + p`. -/
theorem pre_tile (R : ReadsTile x0 x1 x2 x3 x4 x5 x6 X C H Wx Wh bx bh r0 hr) (p : Fin 512) (g : Fin 4) (j : Fin 1024) :
    k0_pay1 (F := Ideal) x0 x1 x3 x4 x5 x6 (ix2 p ⟨g.val * 1024 + j.val, by have := g.isLt; have := j.isLt; omega⟩)
      = preact X H Wx Wh bx bh ⟨r0 + p.val, by have := p.isLt; omega⟩ g j := by
  rw [Preact.pay1_apply]
  unfold preact
  simp only [R.xrows, R.hrows, R.wxflat, R.whflat, R.bxflat, R.bhflat]

/-- The same at any index of the 512 × 4096 array whose coordinates are row `y 0` and column `g · 1024 + y 1`. -/
theorem pre_tile_at (R : ReadsTile x0 x1 x2 x3 x4 x5 x6 X C H Wx Wh bx bh r0 hr) (y : S512x1024.Idx) (g : Fin 4)
    (i : S512x4096.Idx) (h0 : (i 0).val = (y 0).val) (h1 : (i 1).val = g.val * 1024 + (y 1).val) :
    k0_pay1 (F := Ideal) x0 x1 x3 x4 x5 x6 i
      = preact X H Wx Wh bx bh ⟨r0 + (y 0).val, by have := row_lt y; omega⟩ g (y 1) := by
  have e : i = ix2 (y 0) ⟨g.val * 1024 + (y 1).val, by have := g.isLt; have := col_lt y; omega⟩ :=
    funext fun a => Fin.ext (by
      match a with
      | ⟨0, _⟩ => exact h0
      | ⟨1, _⟩ => exact h1)
  exact (congrArg (k0_pay1 (F := Ideal) x0 x1 x3 x4 x5 x6) e).trans (pre_tile R (y 0) g (y 1))

/-- The block of `c` at a block index is `C` on the tile's row. -/
theorem c_tile_at (R : ReadsTile x0 x1 x2 x3 x4 x5 x6 X C H Wx Wh bx bh r0 hr) (y i : S512x1024.Idx)
    (h0 : (i 0).val = (y 0).val) (h1 : (i 1).val = (y 1).val) :
    x2 i = C (ix2 ⟨r0 + (y 0).val, by have := row_lt y; omega⟩ (y 1)) := by
  have e : i = ix2 (y 0) (y 1) := funext fun a => Fin.ext (by
    match a with
    | ⟨0, _⟩ => exact h0
    | ⟨1, _⟩ => exact h1)
  exact (congrArg x2 e).trans (R.crows (y 0) (y 1))

/-- The first result's block: the output gate on the tile's rows. -/
theorem out7_tile (R : ReadsTile x0 x1 x2 x3 x4 x5 x6 X C H Wx Wh bx bh r0 hr) (y : S512x1024.Idx) :
    out0_7 (F := Ideal) x0 x1 x2 x3 x4 x5 x6 y
      = outGate X H Wx Wh bx bh (ix2 ⟨r0 + (y 0).val, by have := row_lt y; omega⟩ (y 1)) := by
  unfold out0_7
  rw [Value.canon7_eq]
  simp only [View.ld_unit_zero (S := S512x1024) origin, View.ld_unit_zero (S := S4096x1024) origin, View.ld_unit_zero (S := S1x4096) origin]
  show FloatOps.logistic (k0_pay1 (F := Ideal) x0 x1 x3 x4 x5 x6 (Value.ix7_0 y)) = _
  rw [pre_tile_at R y 3 (Value.ix7_0 y) rfl (by show (y 1).val + 3072 = 3 * 1024 + (y 1).val; omega)]
  rfl

/-- The second result's block: the new cell state on the tile's rows. -/
theorem out8_tile (R : ReadsTile x0 x1 x2 x3 x4 x5 x6 X C H Wx Wh bx bh r0 hr) (y : S512x1024.Idx) :
    out0_8 (F := Ideal) x0 x1 x2 x3 x4 x5 x6 y
      = cellNext X C H Wx Wh bx bh (ix2 ⟨r0 + (y 0).val, by have := row_lt y; omega⟩ (y 1)) := by
  unfold out0_8
  rw [Value.canon8_eq]
  simp only [View.ld_unit_zero (S := S512x1024) origin, View.ld_unit_zero (S := S4096x1024) origin, View.ld_unit_zero (S := S1x4096) origin]
  show FloatOps.addf (FloatOps.mulf (FloatOps.logistic (k0_pay1 (F := Ideal) x0 x1 x3 x4 x5 x6 (Value.ix8_0 y))) (x2 (Value.ix8_1 y)))
      (FloatOps.mulf (FloatOps.logistic (k0_pay1 (F := Ideal) x0 x1 x3 x4 x5 x6 (Value.ix8_2 y))) (FloatOps.tanh (k0_pay1 (F := Ideal) x0 x1 x3 x4 x5 x6 (Value.ix8_3 y)))) = _
  rw [pre_tile_at R y 0 (Value.ix8_0 y) rfl (by show (y 1).val = 0 * 1024 + (y 1).val; omega),
    pre_tile_at R y 1 (Value.ix8_2 y) rfl (by show (y 1).val + 1024 = 1 * 1024 + (y 1).val; omega),
    pre_tile_at R y 2 (Value.ix8_3 y) rfl (by show (y 1).val + 2048 = 2 * 1024 + (y 1).val; omega),
    c_tile_at R y (Value.ix8_1 y) rfl rfl]
  rfl

/-- The third result's block: the new hidden state on the tile's rows. -/
theorem out9_tile (R : ReadsTile x0 x1 x2 x3 x4 x5 x6 X C H Wx Wh bx bh r0 hr) (y : S512x1024.Idx) :
    out0_9 (F := Ideal) x0 x1 x2 x3 x4 x5 x6 y
      = hiddenNext X C H Wx Wh bx bh (ix2 ⟨r0 + (y 0).val, by have := row_lt y; omega⟩ (y 1)) := by
  unfold out0_9
  rw [Value.canon9_eq]
  simp only [View.ld_unit_zero (S := S512x1024) origin, View.ld_unit_zero (S := S4096x1024) origin, View.ld_unit_zero (S := S1x4096) origin]
  show FloatOps.mulf (FloatOps.logistic (k0_pay1 (F := Ideal) x0 x1 x3 x4 x5 x6 (Value.ix9_0 y)))
      (FloatOps.tanh (FloatOps.addf (FloatOps.mulf (FloatOps.logistic (k0_pay1 (F := Ideal) x0 x1 x3 x4 x5 x6 (Value.ix9_1 y))) (x2 (Value.ix9_2 y)))
        (FloatOps.mulf (FloatOps.logistic (k0_pay1 (F := Ideal) x0 x1 x3 x4 x5 x6 (Value.ix9_3 y))) (FloatOps.tanh (k0_pay1 (F := Ideal) x0 x1 x3 x4 x5 x6 (Value.ix9_4 y)))))) = _
  rw [pre_tile_at R y 3 (Value.ix9_0 y) rfl (by show (y 1).val + 3072 = 3 * 1024 + (y 1).val; omega),
    pre_tile_at R y 0 (Value.ix9_1 y) rfl (by show (y 1).val = 0 * 1024 + (y 1).val; omega),
    pre_tile_at R y 1 (Value.ix9_3 y) rfl (by show (y 1).val + 1024 = 1 * 1024 + (y 1).val; omega),
    pre_tile_at R y 2 (Value.ix9_4 y) rfl (by show (y 1).val + 2048 = 2 * 1024 + (y 1).val; omega),
    c_tile_at R y (Value.ix9_2 y) rfl rfl]
  rfl

end

end Cert.KernelIdeal.Tile

end
-- ==== Proof.KernelArrays.lean ====
/-
  From grid points to whole arrays.  The grid has 32 points; point `t` is handed rows `512 t … 512 t + 511` of `x`, `h` and
  `c` and, at every point, the whole of the four parameter arrays the host code prepared before the call: each weight
  stack reshaped from 4 × 1024 × 1024 to 4096 × 1024 (and narrowed, which changes nothing on the extended reals), each bias
  reshaped from 4 × 1024 to 1 × 4096.  A row-major reshape keeps the flat position, so flat row `g · 1024 + j` is gate `g`,
  unit `j`.  Point `t` writes its three result blocks back to rows `512 t … 512 t + 511` of the three result arrays; the 32
  blocks tile the 16384 rows, so after the run each result array is the cell's function of the arguments everywhere.
-/
import proofs.«150628_j12962211300009_1_alg».proof.Proof.KernelTile
import Idealize.ShloMosaic.Lib.Pipeline.Value
import Idealize.ShloMosaic.Lib.StableHlo.Run
import Idealize.ShloMosaic.Lib.Tactic

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## The seven arguments, at their literal shapes -/

abbrev argX (c : Dev nD) : ShRows.Idx → EReal := m ((c : Thread nD τ).loc main_arg0)
abbrev argC (c : Dev nD) : ShRows.Idx → EReal := m ((c : Thread nD τ).loc main_arg1)
abbrev argH (c : Dev nD) : ShRows.Idx → EReal := m ((c : Thread nD τ).loc main_arg2)
abbrev argWx (c : Dev nD) : ShWeights.Idx → EReal := m ((c : Thread nD τ).loc main_arg3)
abbrev argBx (c : Dev nD) : ShBias.Idx → EReal := m ((c : Thread nD τ).loc main_arg4)
abbrev argWh (c : Dev nD) : ShWeights.Idx → EReal := m ((c : Thread nD τ).loc main_arg5)
abbrev argBh (c : Dev nD) : ShBias.Idx → EReal := m ((c : Thread nD τ).loc main_arg6)

/-! ## The index maps over the grid -/

theorem point_lt (t : Fin cfg0.N) : t.val < 32 :=
  Nat.lt_of_lt_of_eq t.isLt (show cfg0.N = 32 from N_0)

/-- The three tiled inputs and the three results move with the grid point along the rows; the four parameter arrays are
    always at block (0, 0). -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## What the host code left in the four parameter arrays -/

theorem wx_flat (c : Dev nD) : (V m c main_v1 : S4096x1024.Idx → EReal)
    = truncf (F := Ideal) .bf16 (shapeCast S4096x1024 (m ((c : Thread nD τ).loc main_arg3)) shapeCasts_S4x1024x1024_S4096x1024) bitsLt_bf16_f32 := by
  dsimp only [Gen.V, Gen.hostOps0]; after_results; rfl
theorem wh_flat (c : Dev nD) : (V m c main_v3 : S4096x1024.Idx → EReal)
    = truncf (F := Ideal) .bf16 (shapeCast S4096x1024 (m ((c : Thread nD τ).loc main_arg5)) shapeCasts_S4x1024x1024_S4096x1024) bitsLt_bf16_f32 := by
  dsimp only [Gen.V, Gen.hostOps0]; after_results; rfl
theorem bx_flat (c : Dev nD) : (V m c main_v4 : S1x4096.Idx → EReal)
    = shapeCast S1x4096 (m ((c : Thread nD τ).loc main_arg4)) shapeCasts_S4x1024_S1x4096 := by
  dsimp only [Gen.V, Gen.hostOps0]; after_results; rfl
theorem bh_flat (c : Dev nD) : (V m c main_v5 : S1x4096.Idx → EReal)
    = shapeCast S1x4096 (m ((c : Thread nD τ).loc main_arg6)) shapeCasts_S4x1024_S1x4096 := by
  dsimp only [Gen.V, Gen.hostOps0]; after_results; rfl

/-- A weight stack flattened: flat row `g · 1024 + j`, column `k` is entry `(g, j, k)`. -/
theorem flat_weight (W : S4x1024x1024.Idx → EReal) (g : Fin 4) (j k : Fin 1024) (n : Fin 4096) (hn : n.val = g.val * 1024 + j.val) :
    shapeCast S4096x1024 W shapeCasts_S4x1024x1024_S4096x1024 (ix2 n k) = W (ix3 g j k) := by
  refine shapeCast_apply W shapeCasts_S4x1024x1024_S4096x1024 (ix2 n k) (ix3 g j k) ?_
  rewrite [Shape.rowMajor_val_three, Shape.rowMajor_val_two]
  show (g.val * 1024 + j.val) * 1024 + k.val = n.val * 1024 + k.val
  rw [hn]

/-- A bias flattened: column `g · 1024 + j` of the one row is entry `(g, j)`. -/
theorem flat_bias (b : S4x1024.Idx → EReal) (g : Fin 4) (j : Fin 1024) (n : Fin 4096) (hn : n.val = g.val * 1024 + j.val) :
    shapeCast S1x4096 b shapeCasts_S4x1024_S1x4096 (ix2 0 n) = b (ix2 g j) := by
  refine shapeCast_apply b shapeCasts_S4x1024_S1x4096 (ix2 0 n) (ix2 g j) ?_
  rewrite [Shape.rowMajor_val_two, Shape.rowMajor_val_two]
  show g.val * 1024 + j.val = 0 * 4096 + n.val
  rw [hn]; omega

/-! ## Each window's block at a grid point -/

/-- The block of `x` at point `t` is rows `512 t …` of `x`. -/
theorem x_block (c : Dev nD) (t : Fin cfg0.N) (p : Fin 512) (k : Fin 1024) :
    (iblk m c 0 t : Vec Ideal S512x1024 .f32) (ix2 p k)
      = argX m c (ix2 ⟨512 * t.val + p.val, by have := point_lt t; have := p.isLt; omega⟩ k) := by
  obtain ⟨⟨e0, e1⟩, -⟩ := index_maps t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = 512 * t.val + p.val; rw [e0]; omega
  | ⟨1, _⟩ => show win0_0.index t 1 * 1024 + 1 * k.val = k.val; rw [e1]; omega

/-- The block of `h` at point `t` is rows `512 t …` of `h`. -/
theorem h_block (c : Dev nD) (t : Fin cfg0.N) (p : Fin 512) (k : Fin 1024) :
    (iblk m c 1 t : Vec Ideal S512x1024 .f32) (ix2 p k)
      = argH m c (ix2 ⟨512 * t.val + p.val, by have := point_lt t; have := p.isLt; omega⟩ k) := by
  obtain ⟨-, ⟨e0, e1⟩, -⟩ := index_maps t
  unfold iblk
  rw [View.read_apply]
  show V m c main_arg2 _ = m ((c : Thread nD τ).loc main_arg2) _
  rw [V_main_arg2]
  congr 1
  funext a
  apply Fin.ext
  match a with
  | ⟨0, _⟩ => show win0_1.index t 0 * 512 + 1 * p.val = 512 * t.val + p.val; rw [e0]; omega
  | ⟨1, _⟩ => show win0_1.index t 1 * 1024 + 1 * k.val = k.val; rw [e1]; omega

/-- The block of `c` at point `t` is rows `512 t …` of `c`. -/
theorem c_block (c : Dev nD) (t : Fin cfg0.N) (p : Fin 512) (k : Fin 1024) :
    (iblk m c 2 t : Vec Ideal S512x1024 .f32) (ix2 p k)
      = argC m c (ix2 ⟨512 * t.val + p.val, by have := point_lt t; have := p.isLt; omega⟩ k) := by
  obtain ⟨-, -, ⟨e0, e1⟩, -⟩ := index_maps t
  unfold iblk
  rw [View.read_apply]
  show V m c main_arg1 _ = m ((c : Thread nD τ).loc main_arg1) _
  rw [V_main_arg1]
  congr 1
  funext a
  apply Fin.ext
  match a with
  | ⟨0, _⟩ => show win0_2.index t 0 * 512 + 1 * p.val = 512 * t.val + p.val; rw [e0]; omega
  | ⟨1, _⟩ => show win0_2.index t 1 * 1024 + 1 * k.val = k.val; rw [e1]; omega

/-- The block of the flattened input weights is the whole flattened array, at every point. -/
theorem wx_block (c : Dev nD) (t : Fin cfg0.N) (g : Fin 4) (j k : Fin 1024) :
    (iblk m c 3 t : Vec Ideal S4096x1024 .bf16) (ix2 ⟨g.val * 1024 + j.val, by have := g.isLt; have := j.isLt; omega⟩ k)
      = argWx m c (ix3 g j k) := by
  obtain ⟨-, -, -, ⟨e0, e1⟩, -⟩ := index_maps t
  unfold iblk
  rw [View.read_apply]
  have hi : (((cfg0.win 3).blk t).view.emb (ix2 ⟨g.val * 1024 + j.val, by have := g.isLt; have := j.isLt; omega⟩ k) : S4096x1024.Idx)
      = ix2 ⟨g.val * 1024 + j.val, by have := g.isLt; have := j.isLt; omega⟩ k := by
    funext a
    apply Fin.ext
    match a with
    | ⟨0, _⟩ => show win0_3.index t 0 * 4096 + 1 * (g.val * 1024 + j.val) = g.val * 1024 + j.val; rw [e0]; omega
    | ⟨1, _⟩ => show win0_3.index t 1 * 1024 + 1 * k.val = k.val; rw [e1]; omega
  show (V m c main_v1 : S4096x1024.Idx → EReal) _ = _
  rw [hi, wx_flat]
  exact flat_weight _ g j k _ rfl

/-- The same for the hidden weights. -/
theorem wh_block (c : Dev nD) (t : Fin cfg0.N) (g : Fin 4) (j k : Fin 1024) :
    (iblk m c 4 t : Vec Ideal S4096x1024 .bf16) (ix2 ⟨g.val * 1024 + j.val, by have := g.isLt; have := j.isLt; omega⟩ k)
      = argWh m c (ix3 g j k) := by
  obtain ⟨-, -, -, -, ⟨e0, e1⟩, -⟩ := index_maps t
  unfold iblk
  rw [View.read_apply]
  have hi : (((cfg0.win 4).blk t).view.emb (ix2 ⟨g.val * 1024 + j.val, by have := g.isLt; have := j.isLt; omega⟩ k) : S4096x1024.Idx)
      = ix2 ⟨g.val * 1024 + j.val, by have := g.isLt; have := j.isLt; omega⟩ k := by
    funext a
    apply Fin.ext
    match a with
    | ⟨0, _⟩ => show win0_4.index t 0 * 4096 + 1 * (g.val * 1024 + j.val) = g.val * 1024 + j.val; rw [e0]; omega
    | ⟨1, _⟩ => show win0_4.index t 1 * 1024 + 1 * k.val = k.val; rw [e1]; omega
  show (V m c main_v3 : S4096x1024.Idx → EReal) _ = _
  rw [hi, wh_flat]
  exact flat_weight _ g j k _ rfl

/-- The block of the flattened input bias is its one row, at every point. -/
theorem bx_block (c : Dev nD) (t : Fin cfg0.N) (g : Fin 4) (j : Fin 1024) :
    (iblk m c 5 t : Vec Ideal S1x4096 .f32) (ix2 0 ⟨g.val * 1024 + j.val, by have := g.isLt; have := j.isLt; omega⟩)
      = argBx m c (ix2 g j) := by
  obtain ⟨-, -, -, -, -, ⟨e0, e1⟩, -⟩ := index_maps t
  unfold iblk
  rw [View.read_apply]
  have hi : (((cfg0.win 5).blk t).view.emb (ix2 0 ⟨g.val * 1024 + j.val, by have := g.isLt; have := j.isLt; omega⟩) : S1x4096.Idx)
      = ix2 0 ⟨g.val * 1024 + j.val, by have := g.isLt; have := j.isLt; omega⟩ := by
    funext a
    apply Fin.ext
    match a with
    | ⟨0, _⟩ => show win0_5.index t 0 * 1 + 1 * 0 = 0; rw [e0]
    | ⟨1, _⟩ => show win0_5.index t 1 * 4096 + 1 * (g.val * 1024 + j.val) = g.val * 1024 + j.val; rw [e1]; omega
  show (V m c main_v4 : S1x4096.Idx → EReal) _ = _
  rw [hi, bx_flat]
  exact flat_bias _ g j _ rfl

/-- The same for the hidden bias. -/
theorem bh_block (c : Dev nD) (t : Fin cfg0.N) (g : Fin 4) (j : Fin 1024) :
    (iblk m c 6 t : Vec Ideal S1x4096 .f32) (ix2 0 ⟨g.val * 1024 + j.val, by have := g.isLt; have := j.isLt; omega⟩)
      = argBh m c (ix2 g j) := by
  obtain ⟨-, -, -, -, -, -, ⟨e0, e1⟩, -⟩ := index_maps t
  unfold iblk
  rw [View.read_apply]
  have hi : (((cfg0.win 6).blk t).view.emb (ix2 0 ⟨g.val * 1024 + j.val, by have := g.isLt; have := j.isLt; omega⟩) : S1x4096.Idx)
      = ix2 0 ⟨g.val * 1024 + j.val, by have := g.isLt; have := j.isLt; omega⟩ := by
    funext a
    apply Fin.ext
    match a with
    | ⟨0, _⟩ => show win0_6.index t 0 * 1 + 1 * 0 = 0; rw [e0]
    | ⟨1, _⟩ => show win0_6.index t 1 * 4096 + 1 * (g.val * 1024 + j.val) = g.val * 1024 + j.val; rw [e1]; omega
  show (V m c main_v5 : S1x4096.Idx → EReal) _ = _
  rw [hi, bh_flat]
  exact flat_bias _ g j _ rfl

/-- At point `t` the seven blocks are the tile starting at row `512 t`. -/
theorem reads_tile (c : Dev nD) (t : Fin cfg0.N) :
    Tile.ReadsTile (iblk m c 0 t) (iblk m c 1 t) (iblk m c 2 t) (iblk m c 3 t) (iblk m c 4 t) (iblk m c 5 t) (iblk m c 6 t)
      (argX m c) (argC m c) (argH m c) (argWx m c) (argWh m c) (argBx m c) (argBh m c)
      (512 * t.val) (by have := point_lt t; omega) where
  xrows := x_block m c t
  hrows := h_block m c t
  crows := c_block m c t
  wxflat := wx_block m c t
  whflat := wh_block m c t
  bxflat := bx_block m c t
  bhflat := bh_block m c t

/-! ## What each point writes back -/

/-- Point `t` writes back block `t` of the output gate. -/
theorem flushed_out (c : Dev nD) (t : Fin cfg0.N) :
    (dats m 0 c).flushed 7 t = ((cfg0.win 7).blk t).view.read (Elt Ideal)
      (outGate (argX m c) (argH m c) (argWx m c) (argWh m c) (argBx m c) (argBh m c)) := by
  obtain ⟨-, -, -, -, -, -, -, ⟨e0, e1⟩, -⟩ := index_maps t
  rw [Value.flushed7]
  funext y
  show out0_7 (iblk m c 0 t) (iblk m c 1 t) (iblk m c 2 t) (iblk m c 3 t) (iblk m c 4 t) (iblk m c 5 t) (iblk m c 6 t) y
    = outGate (argX m c) (argH m c) (argWx m c) (argWh m c) (argBx m c) (argBh m c) (((cfg0.win 7).blk t).view.emb y)
  refine (Tile.out7_tile (reads_tile m c t) y).trans ?_
  congr 1
  funext a
  apply Fin.ext
  match a with
  | ⟨0, _⟩ => show 512 * t.val + (y 0).val = win0_7.index t 0 * 512 + 1 * (y 0).val; rw [e0]; omega
  | ⟨1, _⟩ => show (y 1).val = win0_7.index t 1 * 1024 + 1 * (y 1).val; rw [e1]; omega

/-- Point `t` writes back block `t` of the new cell state. -/
theorem flushed_cell (c : Dev nD) (t : Fin cfg0.N) :
    (dats m 0 c).flushed 8 t = ((cfg0.win 8).blk t).view.read (Elt Ideal)
      (cellNext (argX m c) (argC m c) (argH m c) (argWx m c) (argWh m c) (argBx m c) (argBh m c)) := by
  obtain ⟨-, -, -, -, -, -, -, -, ⟨e0, e1⟩, -⟩ := index_maps t
  rw [Value.flushed8]
  funext y
  show out0_8 (iblk m c 0 t) (iblk m c 1 t) (iblk m c 2 t) (iblk m c 3 t) (iblk m c 4 t) (iblk m c 5 t) (iblk m c 6 t) y
    = cellNext (argX m c) (argC m c) (argH m c) (argWx m c) (argWh m c) (argBx m c) (argBh m c) (((cfg0.win 8).blk t).view.emb y)
  refine (Tile.out8_tile (reads_tile m c t) y).trans ?_
  congr 1
  funext a
  apply Fin.ext
  match a with
  | ⟨0, _⟩ => show 512 * t.val + (y 0).val = win0_8.index t 0 * 512 + 1 * (y 0).val; rw [e0]; omega
  | ⟨1, _⟩ => show (y 1).val = win0_8.index t 1 * 1024 + 1 * (y 1).val; rw [e1]; omega

/-- Point `t` writes back block `t` of the new hidden state. -/
theorem flushed_hidden (c : Dev nD) (t : Fin cfg0.N) :
    (dats m 0 c).flushed 9 t = ((cfg0.win 9).blk t).view.read (Elt Ideal)
      (hiddenNext (argX m c) (argC m c) (argH m c) (argWx m c) (argWh m c) (argBx m c) (argBh m c)) := by
  obtain ⟨-, -, -, -, -, -, -, -, -, ⟨e0, e1⟩⟩ := index_maps t
  rw [Value.flushed9]
  funext y
  show out0_9 (iblk m c 0 t) (iblk m c 1 t) (iblk m c 2 t) (iblk m c 3 t) (iblk m c 4 t) (iblk m c 5 t) (iblk m c 6 t) y
    = hiddenNext (argX m c) (argC m c) (argH m c) (argWx m c) (argWh m c) (argBx m c) (argBh m c) (((cfg0.win 9).blk t).view.emb y)
  refine (Tile.out9_tile (reads_tile m c t) y).trans ?_
  congr 1
  funext a
  apply Fin.ext
  match a with
  | ⟨0, _⟩ => show 512 * t.val + (y 0).val = win0_9.index t 0 * 512 + 1 * (y 0).val; rw [e0]; omega
  | ⟨1, _⟩ => show (y 1).val = win0_9.index t 1 * 1024 + 1 * (y 1).val; rw [e1]; omega

/-! ## The 32 blocks tile the rows -/

/-- The point whose block holds row `r` is `r / 512`. -/
def pointOf (i : S16384x1024.Idx) : Fin cfg0.N :=
  ⟨(i 0).val / 512, by
    have h0 : (i 0).val < 16384 := (i 0).isLt
    rw [show cfg0.N = 32 from N_0]; omega⟩

theorem pointOf_val (i : S16384x1024.Idx) : (pointOf i).val = (i 0).val / 512 := rfl

theorem cover_out (i : S16384x1024.Idx) : ∃ t : Fin cfg0.N, (cfg0.win 7).flush t = true ∧ i ∈ ((cfg0.win 7).blk t).view.set := by
  have h0 : (i 0).val < 16384 := (i 0).isLt
  have h1 : (i 1).val < 1024 := (i 1).isLt
  obtain ⟨-, -, -, -, -, -, -, ⟨e0, e1⟩, -⟩ := index_maps (pointOf i)
  refine ⟨pointOf i, flush0_7 _, ?_⟩
  show i ∈ ((View.whole main_v6_0).slice (win0_7.rect (pointOf i))).set
  rw [View.set_slice_whole, Rect.mem_set_unit]
  intro a
  match a with
  | ⟨0, _⟩ =>
    show win0_7.index (pointOf i) 0 * 512 ≤ (i 0).val ∧ (i 0).val < win0_7.index (pointOf i) 0 * 512 + 512
    rw [e0, pointOf_val]; omega
  | ⟨1, _⟩ =>
    show win0_7.index (pointOf i) 1 * 1024 ≤ (i 1).val ∧ (i 1).val < win0_7.index (pointOf i) 1 * 1024 + 1024
    rw [e1]; omega

theorem cover_cell (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  obtain ⟨-, -, -, -, -, -, -, -, ⟨e0, e1⟩, -⟩ := index_maps (pointOf i)
  refine ⟨pointOf i, flush0_8 _, ?_⟩
  show i ∈ ((View.whole main_v6_1).slice (win0_8.rect (pointOf i))).set
  rw [View.set_slice_whole, Rect.mem_set_unit]
  intro a
  match a with
  | ⟨0, _⟩ =>
    show win0_8.index (pointOf i) 0 * 512 ≤ (i 0).val ∧ (i 0).val < win0_8.index (pointOf i) 0 * 512 + 512
    rw [e0, pointOf_val]; omega
  | ⟨1, _⟩ =>
    show win0_8.index (pointOf i) 1 * 1024 ≤ (i 1).val ∧ (i 1).val < win0_8.index (pointOf i) 1 * 1024 + 1024
    rw [e1]; omega

theorem cover_hidden (i : S16384x1024.Idx) : ∃ t : Fin cfg0.N, (cfg0.win 9).flush t = true ∧ i ∈ ((cfg0.win 9).blk t).view.set := by
  have h0 : (i 0).val < 16384 := (i 0).isLt
  have h1 : (i 1).val < 1024 := (i 1).isLt
  obtain ⟨-, -, -, -, -, -, -, -, -, ⟨e0, e1⟩⟩ := index_maps (pointOf i)
  refine ⟨pointOf i, flush0_9 _, ?_⟩
  show i ∈ ((View.whole main_v6_2).slice (win0_9.rect (pointOf i))).set
  rw [View.set_slice_whole, Rect.mem_set_unit]
  intro a
  match a with
  | ⟨0, _⟩ =>
    show win0_9.index (pointOf i) 0 * 512 ≤ (i 0).val ∧ (i 0).val < win0_9.index (pointOf i) 0 * 512 + 512
    rw [e0, pointOf_val]; omega
  | ⟨1, _⟩ =>
    show win0_9.index (pointOf i) 1 * 1024 ≤ (i 1).val ∧ (i 1).val < win0_9.index (pointOf i) 1 * 1024 + 1024
    rw [e1]; omega

/-! ## The three result arrays after the run -/

theorem final_out (c : Dev nD) : (dats m 0 c).arrAt 7 cfg0.N
    = outGate (argX m c) (argH m c) (argWx m c) (argWh m c) (argBx m c) (argBh m c) :=
  (dats m 0 c).arrAt_eq_of_cover 7 _ (fun t _ => flushed_out m c t) cover_out

theorem final_cell (c : Dev nD) : (dats m 0 c).arrAt 8 cfg0.N
    = cellNext (argX m c) (argC m c) (argH m c) (argWx m c) (argWh m c) (argBx m c) (argBh m c) :=
  (dats m 0 c).arrAt_eq_of_cover 8 _ (fun t _ => flushed_cell m c t) cover_cell

theorem final_hidden (c : Dev nD) : (dats m 0 c).arrAt 9 cfg0.N
    = hiddenNext (argX m c) (argC m c) (argH m c) (argWx m c) (argWh m c) (argBx m c) (argBh m c) :=
  (dats m 0 c).arrAt_eq_of_cover 9 _ (fun t _ => flushed_hidden m c t) cover_hidden

/-- The kernel's run: every execution ends with the three result arrays at the cell's three functions of the arguments,
    the arguments unchanged. -/
theorem run : θ_run defs (onTc (τ := τ) (main (F := Ideal))) ⟨m, fun _ => 0, ρ⟩ fun r => ∀ c : Dev nD,
      r.2.mem ((c : Thread nD τ).loc main_v6_0) = outGate (argX m c) (argH m c) (argWx m c) (argWh m c) (argBx m c) (argBh m c)
      ∧ r.2.mem ((c : Thread nD τ).loc main_v6_1) = cellNext (argX m c) (argC m c) (argH m c) (argWx m c) (argWh m c) (argBx m c) (argBh m c)
      ∧ r.2.mem ((c : Thread nD τ).loc main_v6_2) = hiddenNext (argX m c) (argC m c) (argH m c) (argWx m c) (argWh m c) (argBx m c) (argBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c), (h c).2.1.trans (final_cell m c),
      (h c).2.2.1.trans (final_hidden m c), (h c).2.2.2⟩)
    (Value.run_blocks m ρ)

end Cert.KernelIdeal.Arrays

end
-- ==== Proof.RefValue.lean ====
/-
  The reference, read at an index, is the cell of LstmSpec.  Its einsum `'bi,ghi->bgh'` is a `dot_general` contracting `x`'s
  axis 1 with the weights' axis 2, so entry `(b, g, j)` is `Σ_i x[b,i] · Wx[g,j,i]`; the two products are added, then the two
  biases broadcast over the batch; gate `g` is the slice `[:, g, :]`; and `jax.nn.sigmoid` is spelled out on the host as
  `1 / (1 + exp (−z))`, which is the logistic function.
-/
import proofs.«150628_j12962211300009_1_alg».proof.Proof.LstmSpec
import proofs.«150628_j12962211300009_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx Cert.Lstm
open scoped BigOperators

variable (X C H : ShRows.Idx → EReal) (Wx Wh : ShWeights.Idx → EReal) (bx bh : ShBias.Idx → EReal)

/-- The stacked pre-activations `[B, 4, H]` at `(b, g, j)`. -/
theorem pre_apply (b : Fin 16384) (g : Fin 4) (j : Fin 1024) :
    val_main_v8 (F := Ideal) X H Wx bx Wh bh (ix3 b g j) = preact X H Wx Wh bx bh b g j := by
  have el0 : ∀ k, lidx_main_v0 (ix3 b g j) k = ix2 b k := fun k => funext fun a => Fin.ext (by
    match a with | ⟨0, _⟩ => rfl | ⟨1, _⟩ => rfl)
  have er0 : ∀ k, ridx_main_v0 (ix3 b g j) k = ix3 g j k := fun k => funext fun a => Fin.ext (by
    match a with | ⟨0, _⟩ => rfl | ⟨1, _⟩ => rfl | ⟨2, _⟩ => rfl)
  have el1 : ∀ k, lidx_main_v1 (ix3 b g j) k = ix2 b k := fun k => funext fun a => Fin.ext (by
    match a with | ⟨0, _⟩ => rfl | ⟨1, _⟩ => rfl)
  have er1 : ∀ k, ridx_main_v1 (ix3 b g j) k = ix3 g j k := fun k => funext fun a => Fin.ext (by
    match a with | ⟨0, _⟩ => rfl | ⟨1, _⟩ => rfl | ⟨2, _⟩ => rfl)
  have eb0 : idx_main_v3 (idx_main_v4 (ix3 b g j)) = ix2 g j := funext fun a => Fin.ext (by
    match a with | ⟨0, _⟩ => rfl | ⟨1, _⟩ => rfl)
  have eb1 : idx_main_v6 (idx_main_v7 (ix3 b g j)) = ix2 g j := funext fun a => Fin.ext (by
    match a with | ⟨0, _⟩ => rfl | ⟨1, _⟩ => rfl)
  rw [val_main_v8_apply, val_main_v5_apply, val_main_v2_apply, val_main_v0_apply, val_main_v1_apply, val_main_v4_apply,
    val_main_v3_apply, val_main_v7_apply, val_main_v6_apply]
  simp only [el0, er0, el1, er1, eb0, eb1]
  rfl

/-- Gate 0's slice, reshaped to `[B, H]`. -/
theorem gate0_apply (i : S16384x1024.Idx) :
    val_main_v10 (F := Ideal) X H Wx bx Wh bh i = preact X H Wx Wh bx bh (i 0) 0 (i 1) := by
  have e : idx_main_v9 (idx_main_v10 i) = ix3 (i 0) 0 (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v10_apply, val_main_v9_apply, e]
  exact pre_apply X H Wx Wh bx bh (i 0) 0 (i 1)

/-- Gate 1's slice. -/
theorem gate1_apply (i : S16384x1024.Idx) :
    val_main_v18 (F := Ideal) X H Wx bx Wh bh i = preact X H Wx Wh bx bh (i 0) 1 (i 1) := by
  have e : idx_main_v17 (idx_main_v18 i) = ix3 (i 0) 1 (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v18_apply, val_main_v17_apply, e]
  exact pre_apply X H Wx Wh bx bh (i 0) 1 (i 1)

/-- Gate 2's slice. -/
theorem gate2_apply (i : S16384x1024.Idx) :
    val_main_v26 (F := Ideal) X H Wx bx Wh bh i = preact X H Wx Wh bx bh (i 0) 2 (i 1) := by
  have e : idx_main_v25 (idx_main_v26 i) = ix3 (i 0) 2 (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v26_apply, val_main_v25_apply, e]
  exact pre_apply X H Wx Wh bx bh (i 0) 2 (i 1)

/-- Gate 3's slice. -/
theorem gate3_apply (i : S16384x1024.Idx) :
    val_main_v29 (F := Ideal) X H Wx bx Wh bh i = preact X H Wx Wh bx bh (i 0) 3 (i 1) := by
  have e : idx_main_v28 (idx_main_v29 i) = ix3 (i 0) 3 (i 1) := funext fun a => Fin.ext (by
    have h0 : (i 0).val < 16384 := (i 0).isLt
    have h1 : (i 1).val < 1024 := (i 1).isLt
    match a with
    | ⟨0, _⟩ => show ((i 0).val * 1024 + (i 1).val) / 1024 = (i 0).val; omega
    | ⟨1, _⟩ => rfl
    | ⟨2, _⟩ => show ((i 0).val * 1024 + (i 1).val) % 1024 = (i 1).val; omega)
  rw [val_main_v29_apply, val_main_v28_apply, e]
  exact pre_apply X H Wx Wh bx bh (i 0) 3 (i 1)

/-- The forget gate: the host's `1 / (1 + exp (−z))` of gate 0. -/
theorem forget_apply (i : S16384x1024.Idx) :
    val_main_v16 (F := Ideal) X H Wx bx Wh bh i = Ideal.logistic (preact X H Wx Wh bx bh (i 0) 0 (i 1)) := by
  rw [val_main_v16_apply, val_main_v15_apply, val_main_cst_0_apply, val_main_v14_apply, val_main_v13_apply, val_main_cst_apply,
    val_main_v12_apply, val_main_v11_apply, gate0_apply]
  exact one_div_one_add_exp_neg _

/-- The input gate. -/
theorem input_apply (i : S16384x1024.Idx) :
    val_main_v24 (F := Ideal) X H Wx bx Wh bh i = Ideal.logistic (preact X H Wx Wh bx bh (i 0) 1 (i 1)) := by
  rw [val_main_v24_apply, val_main_v23_apply, val_main_cst_2_apply, val_main_v22_apply, val_main_v21_apply, val_main_cst_1_apply,
    val_main_v20_apply, val_main_v19_apply, gate1_apply]
  exact one_div_one_add_exp_neg _

/-- The cell candidate. -/
theorem cand_apply (i : S16384x1024.Idx) :
    val_main_v27 (F := Ideal) X H Wx bx Wh bh i = Ideal.tanh (preact X H Wx Wh bx bh (i 0) 2 (i 1)) := by
  rw [val_main_v27_apply, gate2_apply]
  rfl

/-- THE FIRST RESULT: the output gate. -/
theorem out_eq : val_main_v35 (F := Ideal) X H Wx bx Wh bh = outGate X H Wx Wh bx bh := by
  funext i
  rw [val_main_v35_apply, val_main_v34_apply, val_main_cst_4_apply, val_main_v33_apply, val_main_v32_apply, val_main_cst_3_apply,
    val_main_v31_apply, val_main_v30_apply, gate3_apply]
  exact one_div_one_add_exp_neg _

/-- THE SECOND RESULT: the new cell state. -/
theorem cell_eq : val_main_v38 (F := Ideal) X C H Wx bx Wh bh = cellNext X C H Wx Wh bx bh := by
  funext i
  rw [val_main_v38_apply, val_main_v36_apply, val_main_v37_apply, forget_apply, input_apply, cand_apply]
  rfl

/-- THE THIRD RESULT: the new hidden state. -/
theorem hidden_eq : val_main_v40 (F := Ideal) X C H Wx bx Wh bh = hiddenNext X C H Wx Wh bx bh := by
  funext i
  rw [val_main_v40_apply, val_main_v39_apply, congrFun (cell_eq X C H Wx Wh bx bh) i, congrFun (out_eq X H Wx Wh bx bh) i]
  rfl

end Cert.ReferenceIdeal.RefValue

end
-- ==== Proof.lean ====
/-
  An LSTM cell over a batch of 16384 rows with 1024 inputs and 1024 hidden units: from `x`, `c`, `h`, two stacks of four
  weight matrices and two stacks of four biases, the three results

      o = σ(pre₃),   c_new = σ(pre₀) · c + σ(pre₁) · tanh(pre₂),   h_new = o · tanh(c_new),

  where `pre_g[b, j] = ((Σ_i x[b,i] · Wx[g,j,i]) + (Σ_k h[b,k] · Wh[g,j,k])) + bx[g,j] + bh[g,j]` (Proof/LstmSpec.lean).

  The kernel tiles the batch into 32 blocks of 512 rows.  For a tile it forms all four gates' pre-activations at once as a
  512 × 4096 array — two matrix products against the weight stacks flattened to 4096 × 1024, contracting the last axis of
  both operands, plus the two biases flattened to a row of 4096 — cuts the columns into the four gates and applies the
  nonlinearities (Proof/KernelPreact.lean, Proof/KernelTile.lean).  Flattening keeps the row-major position, so flat row
  `g · 1024 + j` is gate `g`, unit `j`; the 32 result blocks tile the rows (Proof/KernelArrays.lean).  The reference computes
  the same stacked pre-activations by two einsums and slices the gate axis (Proof/RefValue.lean).  On the extended reals a
  change of float format is the identity and both sigmoids are `1 / (1 + e^(−z))`, and both programs add the two products
  and the two biases in the same order: the two sides are one function term by term, and finiteness of the inputs is never
  used.  The kernel's idealization rewrote nothing, so that conjunct is trivial.
-/
import proofs.«150628_j12962211300009_1_alg».proof.Defs
import proofs.«150628_j12962211300009_1_alg».proof.Proof.Gen.Kernel
import proofs.«150628_j12962211300009_1_alg».proof.Proof.Gen.Kernel.Skeleton
import proofs.«150628_j12962211300009_1_alg».proof.Proof.Gen.Kernel.Launch
import proofs.«150628_j12962211300009_1_alg».proof.Proof.Gen.Kernel.Points
import proofs.«150628_j12962211300009_1_alg».proof.Proof.Gen.Kernel.Frame
import proofs.«150628_j12962211300009_1_alg».proof.Proof.Gen.KernelIdeal
import proofs.«150628_j12962211300009_1_alg».proof.Proof.Gen.KernelIdeal.Skeleton
import proofs.«150628_j12962211300009_1_alg».proof.Proof.Gen.KernelIdeal.Launch
import proofs.«150628_j12962211300009_1_alg».proof.Proof.Gen.KernelIdeal.Points
import proofs.«150628_j12962211300009_1_alg».proof.Proof.Gen.KernelIdeal.Frame
import proofs.«150628_j12962211300009_1_alg».proof.Proof.Gen.ReferenceIdeal
import proofs.«150628_j12962211300009_1_alg».proof.Proof.Gen.Pre_finite_inputs
import proofs.«150628_j12962211300009_1_alg».proof.Proof.Gen.KernelIdeal.Value
import proofs.«150628_j12962211300009_1_alg».proof.Proof.Gen.ReferenceIdeal.Run
import proofs.«150628_j12962211300009_1_alg».proof.Proof.Gen.ReferenceIdeal.Read
import proofs.«150628_j12962211300009_1_alg».proof.Proof.KernelArrays
import proofs.«150628_j12962211300009_1_alg».proof.Proof.RefValue
import Idealize.ShloMosaic.Adequacy
import Idealize.ShloMosaic.Init

noncomputable section

namespace Cert.Proof

open Idealize.ShloMosaic Idealize.SL.Sem Cert.Lstm

/-- The word-level kernel runs to the end without a fault and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote no operation of the kernel. -/
theorem preserves : Cert.preserves_Kernel_KernelIdeal := trivial

/-- From memories that agree on the seven arguments, the kernel's three result arrays and the reference's three results are
    the cell's output gate, new cell state and new hidden state of those arguments. -/
theorem algebraic : Cert.algebraic_KernelIdeal_ReferenceIdeal := by
  intro m ρ m' ρ' _ hagree
  refine ⟨fun c => outGate (Cert.KernelIdeal.Arrays.argX m c) (Cert.KernelIdeal.Arrays.argH m c) (Cert.KernelIdeal.Arrays.argWx m c)
        (Cert.KernelIdeal.Arrays.argWh m c) (Cert.KernelIdeal.Arrays.argBx m c) (Cert.KernelIdeal.Arrays.argBh m c),
    fun c => cellNext (Cert.KernelIdeal.Arrays.argX m c) (Cert.KernelIdeal.Arrays.argC m c) (Cert.KernelIdeal.Arrays.argH m c)
        (Cert.KernelIdeal.Arrays.argWx m c) (Cert.KernelIdeal.Arrays.argWh m c) (Cert.KernelIdeal.Arrays.argBx m c) (Cert.KernelIdeal.Arrays.argBh m c),
    fun c => hiddenNext (Cert.KernelIdeal.Arrays.argX m c) (Cert.KernelIdeal.Arrays.argC m c) (Cert.KernelIdeal.Arrays.argH m c)
        (Cert.KernelIdeal.Arrays.argWx m c) (Cert.KernelIdeal.Arrays.argWh m c) (Cert.KernelIdeal.Arrays.argBx m c) (Cert.KernelIdeal.Arrays.argBh m c),
    Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2.1.trans ?_, (h c).2.2.2⟩
  · refine (Cert.ReferenceIdeal.Read.val_main_v35_eq (F := Ideal) _ _ _ _ _ _).trans ((Cert.ReferenceIdeal.RefValue.out_eq _ _ _ _ _ _).trans ?_)
    rw [a0, a2, a3, a4, a5, a6]
  · refine (Cert.ReferenceIdeal.Read.val_main_v38_eq (F := Ideal) _ _ _ _ _ _ _).trans ((Cert.ReferenceIdeal.RefValue.cell_eq _ _ _ _ _ _ _).trans ?_)
    rw [a0, a1, a2, a3, a4, a5, a6]
  · refine (Cert.ReferenceIdeal.Read.val_main_v40_eq (F := Ideal) m' c).trans ((Cert.ReferenceIdeal.RefValue.hidden_eq _ _ _ _ _ _ _).trans ?_)
    rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
